-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S2048x256 .f32) (main_arg5 : FVec F S256 .f32) (main_arg6 : FVec F S256x256 .f32) (main_arg7 : FVec F S256 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x2048 .f32) (main_arg3 : FVec F S2048 .f32) (main_arg4 : FVec F S2048x256 .f32) (main_arg5 : FVec F S256 .f32) (main_arg6 : FVec F S256x256 .f32) (main_arg7 : FVec F S256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S1x2048 : Shape := ⟨2, ![1, 2048]⟩
abbrev S1x256 : Shape := ⟨2, ![1, 256]⟩
abbrev S4096x256 : Shape := ⟨2, ![4096, 256]⟩
abbrev S512x4096 : Shape := ⟨2, ![512, 4096]⟩
abbrev S512x256 : Shape := ⟨2, ![512, 256]⟩
abbrev S512x512 : Shape := ⟨2, ![512, 512]⟩

abbrev nBuf : Space → Nat
  | .hbm => 14
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x2048, .f32⟩
  | .hbm, ⟨3, _⟩ => ⟨S2048, .f32⟩
  | .hbm, ⟨4, _⟩ => ⟨S2048x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x2048, .f32⟩
  | .hbm, ⟨9, _⟩ => ⟨S1x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S512x2048, .f32⟩
  | .local _ .vmem, ⟨4, _⟩ => ⟨S1x2048, .f32⟩
  | .local _ .vmem, ⟨5, _⟩ => ⟨S2048x256, .f32⟩
  | .local _ .vmem, ⟨6, _⟩ => ⟨S512x256, .f32⟩
  | .local _ .vmem, ⟨7, _⟩ => ⟨S512x256, .f32⟩
  | .local _ .vmem, ⟨8, _⟩ => ⟨S512x4096, .f32⟩
  | .local _ .vmem, ⟨9, _⟩ => ⟨S512x4096, .f32⟩
  | .local _ .vmem, ⟨10, _⟩ => ⟨S4096x256, .f32⟩
  | .local _ .vmem, ⟨11, _⟩ => ⟨S1x256, .f32⟩
  | .local _ .vmem, ⟨12, _⟩ => ⟨S256x256, .f32⟩
  | .local _ .vmem, ⟨13, _⟩ => ⟨S512x256, .f32⟩
  | .local _ .vmem, ⟨14, _⟩ => ⟨S512x256, .f32⟩
  | .local _ .vmem, ⟨15, _⟩ => ⟨S512x4096, .f32⟩
  | .local _ .vmem, ⟨16, _⟩ => ⟨S512x4096, .f32⟩
  | .local _ .vmem, ⟨17, _⟩ => ⟨S4096x256, .f32⟩
  | .local _ .vmem, ⟨18, _⟩ => ⟨S1x256, .f32⟩
  | .local _ .vmem, ⟨19, _⟩ => ⟨S512x256, .f32⟩
  | .local _ .vmem, ⟨20, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048_S1x2048 : S2048.ShapeCasts S1x2048
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  dot_S512x4096_S4096x512_S512x512_1_0_0_1_n_n_wf : DotDims.WF S512x4096 S4096x512 S512x512 [1] [0] [0] [1] [] []
  dot_S512x512_S512x2048_S512x2048_1_0_0_1_n_n_wf : DotDims.WF S512x512 S512x2048 S512x2048 [1] [0] [0] [1] [] []
  dot_S512x2048_S2048x256_S512x256_1_0_0_1_n_n_wf : DotDims.WF S512x2048 S2048x256 S512x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .f32 = 32 ∨ (Rect.block (s := S2048x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .f32 = 32 ∨ (Rect.block (s := S4096x256) S512x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S4096x256.size a
  hwx2_3 : ∀ i : grid2.Coords, EltTy.bits .f32 = 32 ∨ (Rect.block (s := S4096x256) S512x256.size (cc2_transform_3 i) (hinb2_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v2) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x2048 : Shape := ⟨2, ![512, 2048]⟩
abbrev S2048 : Shape := ⟨1, ![2048]⟩
abbrev S2048x256 : Shape := ⟨2, ![2048, 256]⟩
abbrev S256 : Shape := ⟨1, ![256]⟩
abbrev S256x256 : Shape := ⟨2, ![256, 256]⟩
abbrev S4096x2048 : Shape := ⟨2, ![4096, 2048]⟩
abbrev S1x2048 : Shape := ⟨2, ![1, 2048]⟩
abbrev S_ : Shape := ⟨0, ![]⟩
abbrev S4096x256 : Shape := ⟨2, ![4096, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x2048, .f32⟩
  | .hbm, ⟨3, _⟩ => ⟨S2048, .f32⟩
  | .hbm, ⟨4, _⟩ => ⟨S2048x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .i1⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x256, .f32⟩
  | .hbm, ⟨21, _⟩ => ⟨S4096x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call2_cst : Ref sig .tc := ⟨.hbm, 33, rfl⟩
abbrev main_call2_v0 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x512_S512x2048_S4096x2048_1_0_0_1_n_n_wf : DotDims.WF S4096x512 S512x2048 S4096x2048 [1] [0] [0] [1] [] []
  dot_S4096x4096_S4096x2048_S4096x2048_1_0_0_1_n_n_wf : DotDims.WF S4096x4096 S4096x2048 S4096x2048 [1] [0] [0] [1] [] []
  dot_S4096x2048_S2048x256_S4096x256_1_0_0_1_n_n_wf : DotDims.WF S4096x2048 S2048x256 S4096x256 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x256_S4096x256_1_0_0_1_n_n : DotDims S4096x2048 S2048x256 S4096x256 where
  lhsContracting := [1]
  rhsContracting := [0]
  lhsNonContracting := [0]
  rhsNonContracting := [1]
  lhsBatch := []
  rhsBatch := []
  wf := dot_S4096x2048_S2048x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Spec.lean ====
/-
  The three-layer graph convolution as one function of the argument arrays, index by index, on the extended reals.

  With `A` the 4096 x 4096 adjacency, a layer takes a pre-activation `P` (rows are nodes), adds a bias along the
  columns, applies its activation entry by entry and multiplies by the next weight matrix on the right. The
  network is

      P1 = A . x . W1                                  (4096 x 2048)
      S2 = leaky (P1 + b1) . W2                        (4096 x 256)
      S3 = relu (A . S2 + b2) . W3                     (4096 x 256)
      out = relu (A . S3 + b3)                         (4096 x 256)

  and the only freedom is how the triple product `P1` is bracketed: `(A . x) . W1` or `A . (x . W1)`. The two
  bracketings agree when every entry of the three factors is a real number (a finite sum of products of reals
  may be regrouped); with an infinite entry the products `0 * inf` and the sums `inf + (-inf)` can differ.
-/
import Idealize.ShloMosaic.Lib.ValueIdx
import Idealize.ShloMosaic.PureOps.Ideal.Laws

noncomputable section

namespace Cert.Spec

open Idealize.ShloMosaic Idealize.ShloMosaic.ValueIdx

/-- The product of an `M x K` and a `K x N` array: entry `(p, j)` is the sum over `a` of `A (p, a) * B (a, j)`. -/
def mm {M K N : Nat} (A : (⟨2, ![M, K]⟩ : Shape).Idx → EReal) (B : (⟨2, ![K, N]⟩ : Shape).Idx → EReal) :
    (⟨2, ![M, N]⟩ : Shape).Idx → EReal :=
  fun i => ∑ a : Fin K, A (ix2 (n0 := M) ⟨(i 0).val, (i 0).isLt⟩ a) * B (ix2 (n1 := N) a ⟨(i 1).val, (i 1).isLt⟩)

theorem mm_ix2 {M K N : Nat} (A : (⟨2, ![M, K]⟩ : Shape).Idx → EReal) (B : (⟨2, ![K, N]⟩ : Shape).Idx → EReal)
    (p : Fin M) (j : Fin N) : mm A B (ix2 p j) = ∑ a : Fin K, A (ix2 p a) * B (ix2 a j) := rfl

/-- A real sum read in the extended reals is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry is a real number. -/
def Finite {S : Shape} (A : S.Idx → EReal) : Prop := ∀ i, ∃ r : ℝ, A i = (r : EReal)

theorem Finite.exists_real {S : Shape} {A : S.Idx → EReal} (h : Finite A) : ∃ a : S.Idx → ℝ, A = fun i => (a i : EReal) :=
  ⟨fun i => (h i).choose, funext fun i => (h i).choose_spec⟩

/-- The triple product may be bracketed either way when all three factors have real entries:
    entry `(p, n)` of both is the double sum over `(k, l)` of `A (p, k) * X (k, l) * W (l, n)`. -/
theorem mm_assoc {M K L N : Nat} (A : (⟨2, ![M, K]⟩ : Shape).Idx → EReal) (X : (⟨2, ![K, L]⟩ : Shape).Idx → EReal)
    (W : (⟨2, ![L, N]⟩ : Shape).Idx → EReal) (hA : Finite A) (hX : Finite X) (hW : Finite W) :
    mm (mm A X) W = mm A (mm X W) := by
  obtain ⟨a, rfl⟩ := hA.exists_real
  obtain ⟨x, rfl⟩ := hX.exists_real
  obtain ⟨w, rfl⟩ := hW.exists_real
  funext i
  obtain ⟨p, n, rfl⟩ : ∃ (p : Fin M) (n : Fin N), i = ix2 p n := ⟨i 0, i 1, eq_ix2 i⟩
  rw [mm_ix2, mm_ix2]
  simp only [mm_ix2, ← EReal.coe_mul, ← coe_sum]
  refine congrArg _ ?_
  simp only [Finset.sum_mul, Finset.mul_sum]
  rw [Finset.sum_comm]
  exact Finset.sum_congr rfl fun k _ => Finset.sum_congr rfl fun l _ => mul_assoc _ _ _

/-- The block of `R` consecutive rows of an array that starts at row `o`. -/
def rows {M N : Nat} (R o : Nat) (ho : o + R ≤ M) (A : (⟨2, ![M, N]⟩ : Shape).Idx → EReal) :
    (⟨2, ![R, N]⟩ : Shape).Idx → EReal :=
  fun i => A (ix2 (n0 := M) ⟨o + (i 0).val, by have := idx2_lt0 i; omega⟩ (n1 := N) ⟨(i 1).val, (i 1).isLt⟩)

theorem rows_ix2 {M N : Nat} (R o : Nat) (ho : o + R ≤ M) (A : (⟨2, ![M, N]⟩ : Shape).Idx → EReal) (p : Fin R) (j : Fin N) :
    rows R o ho A (ix2 p j) = A (ix2 ⟨o + p.val, by have := p.isLt; omega⟩ j) := rfl

/-- A product's rows depend on the same rows of its left factor only. -/
theorem mm_rows {M K N : Nat} (R o : Nat) (ho : o + R ≤ M) (A : (⟨2, ![M, K]⟩ : Shape).Idx → EReal)
    (B : (⟨2, ![K, N]⟩ : Shape).Idx → EReal) : mm (rows R o ho A) B = rows R o ho (mm A B) := rfl

/-- The leaky rectifier: `v` where `v > 0`, the slope literal times `v` elsewhere. -/
def lk (v : EReal) : EReal :=
  Scalar.select (FloatOps.cmpf (F := Ideal) (φ := .f32) .ogt v (Ideal.ofBits .f32 0x00000000#32)) v
    (Ideal.ofBits .f32 0x3C23D70A#32 * v)

/-- The rectifier: the larger of `v` and zero. -/
def relu (v : EReal) : EReal := max v (Ideal.ofBits .f32 0x00000000#32)

/-- A bias along the columns added to every row, then an activation entry by entry. -/
def act {M N : Nat} (f : EReal → EReal) (P : (⟨2, ![M, N]⟩ : Shape).Idx → EReal) (b : Fin N → EReal) :
    (⟨2, ![M, N]⟩ : Shape).Idx → EReal :=
  fun i => f (P i + b ⟨(i 1).val, (i 1).isLt⟩)

theorem act_ix2 {M N : Nat} (f : EReal → EReal) (P : (⟨2, ![M, N]⟩ : Shape).Idx → EReal) (b : Fin N → EReal)
    (p : Fin M) (j : Fin N) : act f P b (ix2 p j) = f (P (ix2 p j) + b j) := rfl

/-- A bias and an activation act row by row. -/
theorem act_rows {M N : Nat} (R o : Nat) (ho : o + R ≤ M) (f : EReal → EReal) (P : (⟨2, ![M, N]⟩ : Shape).Idx → EReal)
    (b : Fin N → EReal) : act f (rows R o ho P) b = rows R o ho (act f P b) := rfl

/-- The first layer from its pre-activation: `leaky (P1 + b1) . W2`. -/
def layer1 (P1 : (⟨2, ![4096, 2048]⟩ : Shape).Idx → EReal) (b1 : Fin 2048 → EReal)
    (W2 : (⟨2, ![2048, 256]⟩ : Shape).Idx → EReal) : (⟨2, ![4096, 256]⟩ : Shape).Idx → EReal :=
  mm (act lk P1 b1) W2

/-- The second layer: `relu (A . S + b2) . W3`. -/
def layer2 (A : (⟨2, ![4096, 4096]⟩ : Shape).Idx → EReal) (S : (⟨2, ![4096, 256]⟩ : Shape).Idx → EReal)
    (b2 : Fin 256 → EReal) (W3 : (⟨2, ![256, 256]⟩ : Shape).Idx → EReal) : (⟨2, ![4096, 256]⟩ : Shape).Idx → EReal :=
  mm (act relu (mm A S) b2) W3

/-- The third layer: `relu (A . S + b3)`. -/
def layer3 (A : (⟨2, ![4096, 4096]⟩ : Shape).Idx → EReal) (S : (⟨2, ![4096, 256]⟩ : Shape).Idx → EReal)
    (b3 : Fin 256 → EReal) : (⟨2, ![4096, 256]⟩ : Shape).Idx → EReal :=
  act relu (mm A S) b3

/-- The network's result from the first pre-activation `P1`. -/
def net (P1 : (⟨2, ![4096, 2048]⟩ : Shape).Idx → EReal) (A : (⟨2, ![4096, 4096]⟩ : Shape).Idx → EReal)
    (b1 : Fin 2048 → EReal) (W2 : (⟨2, ![2048, 256]⟩ : Shape).Idx → EReal) (b2 : Fin 256 → EReal)
    (W3 : (⟨2, ![256, 256]⟩ : Shape).Idx → EReal) (b3 : Fin 256 → EReal) : (⟨2, ![4096, 256]⟩ : Shape).Idx → EReal :=
  layer3 A (layer2 A (layer1 P1 b1 W2) b2 W3) b3

end Cert.Spec

end
-- ==== Proof.PreReal.lean ====
/-
  The precondition, read: every entry of `x`, of the adjacency and of `W1` is a real number.

  The precondition is the conjunction, over the eight arguments, of "every entry's absolute value is below +inf".
  An extended real whose absolute value is below +inf is neither infinity, so it is a real number. Only the first
  three conjuncts are used: regrouping the triple product `A . x . W1` is the one step of the proof that needs
  real entries.
-/
import proofs.«178905_g61065845015369_cont_9to1c4b_553_2_alg».proof.Pre_finite_inputs
import proofs.«178905_g61065845015369_cont_9to1c4b_553_2_alg».proof.Proof.Spec
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.PreReal

open Idealize.ShloMosaic Cert.Pre_finite_inputs Cert.Pre_finite_inputs.Facts Cert.Spec

instance : Subsingleton S_.Idx := ⟨fun a b => funext fun d => d.elim0⟩

/-- An extended real whose absolute value is below +inf is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [Ideal.cmpf_def, Ideal.hostAbsf_def, Ideal.absf_def, hinf] at h
  induction x using EReal.rec with
  | bot => exfalso; simp [Ideal.cmp] at h
  | coe r => exact ⟨r, rfl⟩
  | top => exfalso; simp [Ideal.cmp] at h

/-- `jnp.all (|a| < inf)` being true makes every entry of `a` a real number. -/
theorem finite_of_all {s t u : Shape} {axes : List (Fin s.rank)} [Subsingleton t.Idx] (a : FVec Ideal s .f32) (bc : FVec Ideal s .f32)
    (hbc : ∀ i, bc i = Ideal.ofBits .f32 0x7F800000#32) (init : u.Idx → BitVec 1) (hr : s.ReducesTo axes t) (hu : 0 < u.numel)
    (j : t.Idx) (h : Host.reduce IntOp.andi (cmpf .olt (Host.absf a) bc) init hr hu j = 1#1) : Finite a := fun i => by
  have e := Host.reduce_andi_all _ init hr hu j h i
  refine real_of_abs_lt (a i) ?_
  rw [← hbc i]
  exact e

/-- Under the precondition the three factors of the first product have real entries. -/
theorem finite_of_pre [Cert.Pre_finite_inputs.Facts] (a0 : FVec Ideal S4096x512 .f32) (a1 : FVec Ideal S4096x4096 .f32)
    (a2 : FVec Ideal S512x2048 .f32) (a3 : FVec Ideal S2048 .f32) (a4 : FVec Ideal S2048x256 .f32) (a5 : FVec Ideal S256 .f32)
    (a6 : FVec Ideal S256x256 .f32) (a7 : FVec Ideal S256 .f32)
    (h : fn (F := Ideal) a0 a1 a2 a3 a4 a5 a6 a7 = fun _ => 1#1) : Finite a0 ∧ Finite a1 ∧ Finite a2 := by
  have h0 := congrFun h ValueIdx.ix0
  dsimp only [fn, fn_part1, fn_part2, andi] at h0
  obtain ⟨h33, -⟩ := IntOp.andi_eq_one.mp h0
  obtain ⟨h28, -⟩ := IntOp.andi_eq_one.mp h33
  obtain ⟨h23, -⟩ := IntOp.andi_eq_one.mp h28
  obtain ⟨h18, -⟩ := IntOp.andi_eq_one.mp h23
  obtain ⟨h13, -⟩ := IntOp.andi_eq_one.mp h18
  obtain ⟨h8, h12⟩ := IntOp.andi_eq_one.mp h13
  obtain ⟨h3, h7⟩ := IntOp.andi_eq_one.mp h8
  exact ⟨finite_of_all a0 _ (fun i => (broadcastInDim_apply _ bcast_S_S4096x512 _ i ValueIdx.ix0 (fun a => a.elim0)).trans rfl) _ _ _ _ h3,
    finite_of_all a1 _ (fun i => (broadcastInDim_apply _ bcast_S_S4096x4096 _ i ValueIdx.ix0 (fun a => a.elim0)).trans rfl) _ _ _ _ h7,
    finite_of_all a2 _ (fun i => (broadcastInDim_apply _ bcast_S_S512x2048 _ i ValueIdx.ix0 (fun a => a.elim0)).trans rfl) _ _ _ _ h12⟩

end Cert.PreReal

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Pay.lean ====
/-
  What each kernel body stores, at an entry, on the extended reals.

  Each body loads a block of 512 rows of the adjacency and whole operands, multiplies, adds a bias row, applies its
  activation and (in the first two) multiplies by a weight matrix. Read at row `p` and column `j` of the block, the
  stored value is the corresponding layer of the specification applied to the loaded arrays; and since every
  layer acts row by row, a body that loaded rows `o .. o + 511` of the adjacency stores rows `o .. o + 511` of the
  layer of the whole adjacency.
-/
import proofs.«178905_g61065845015369_cont_9to1c4b_553_2_alg».proof.Proof.Gen.KernelIdeal.Skeleton
import proofs.«178905_g61065845015369_cont_9to1c4b_553_2_alg».proof.Proof.Spec
import proofs.«178905_g61065845015369_cont_9to1c4b_553_2_alg».proof.Proof.LibDot2
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Spec

/-! ## Which coordinate of each operand a product's dimension numbers read

For each of the five products the left operand's row is the output's row, the right operand's column the output's
column, and the left's column and the right's row the contracted index. -/

theorem lhs_adj_x_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_adj_x_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_adj_x_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_adj_x_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

theorem lhs_ax_w1_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_ax_w1_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_ax_w1_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_ax_w1_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem lhs_h_w2_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_h_w2_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_h_w2_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_h_w2_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

theorem lhs_adj_s_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_adj_s_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_adj_s_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_adj_s_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

theorem lhs_h_w3_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_h_w3_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_h_w3_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_h_w3_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-! ## The pre-activations -/

/-- The first body's pre-activation: the block of adjacency rows times `x` times `W1`, plus the bias row. -/
def pre0 (x0 : Vec Ideal S512x4096 .f32) (x1 : Vec Ideal S4096x512 .f32) (x3 : Vec Ideal S512x2048 .f32) (x5 : Vec Ideal S1x2048 .f32) :
    FVec Ideal S512x2048 .f32 :=
  addf (matmul (φ₁ := .f32) (φ₂ := .f32) dot_S512x512_S512x2048_S512x2048_1_0_0_1_n_n none
      (matmul (φ₁ := .f32) (φ₂ := .f32) dot_S512x4096_S4096x512_S512x512_1_0_0_1_n_n none x0 x1 (constant S512x512 .f32 0x00000000#32)) x3
      (constant S512x2048 .f32 0x00000000#32))
    (broadcastTo S512x2048 (shapeCast S1x2048 x5 shapeCasts_S1x2048_S1x2048) broadcasts_S1x2048_S512x2048)

theorem pre0_ix2 (x0 : Vec Ideal S512x4096 .f32) (x1 : Vec Ideal S4096x512 .f32) (x3 : Vec Ideal S512x2048 .f32) (x5 : Vec Ideal S1x2048 .f32)
    (p : Fin 512) (k : Fin 2048) :
    pre0 x0 x1 x3 x5 (ix2 p k) = mm (mm x0 x1) x3 (ix2 p k) + x5 (ix2 (0 : Fin 1) k) := by
  unfold pre0
  rw [addf_apply, shapeCast_self, broadcastTo_1b_ab_apply,
    Cert.Lib.Dot2.matmul_zero_ix2 dot_S512x512_S512x2048_S512x2048_1_0_0_1_n_n none rfl rfl lhs_ax_w1_0 lhs_ax_w1_1 rhs_ax_w1_0 rhs_ax_w1_1,
    mm_ix2]
  refine congrArg (· + x5 (ix2 (0 : Fin 1) k)) (Finset.sum_congr rfl fun l _ => congrArg (· * x3 (ix2 l k)) ?_)
  rw [Cert.Lib.Dot2.matmul_zero_ix2 dot_S512x4096_S4096x512_S512x512_1_0_0_1_n_n none rfl rfl lhs_adj_x_0 lhs_adj_x_1 rhs_adj_x_0 rhs_adj_x_1,
    mm_ix2]

/-- The second and third bodies' pre-activation: the block of adjacency rows times the previous layer's result,
    plus the bias row. -/
def pre1 (x0 : Vec Ideal S512x4096 .f32) (x1 : Vec Ideal S4096x256 .f32) (x4 : Vec Ideal S1x256 .f32) : FVec Ideal S512x256 .f32 :=
  addf (matmul (φ₁ := .f32) (φ₂ := .f32) dot_S512x4096_S4096x256_S512x256_1_0_0_1_n_n none x0
      (shapeCast S4096x256 x1 shapeCasts_S4096x256_S4096x256) (constant S512x256 .f32 0x00000000#32))
    (broadcastTo S512x256 (shapeCast S1x256 x4 shapeCasts_S1x256_S1x256) broadcasts_S1x256_S512x256)

theorem pre1_ix2 (x0 : Vec Ideal S512x4096 .f32) (x1 : Vec Ideal S4096x256 .f32) (x4 : Vec Ideal S1x256 .f32) (p : Fin 512) (k : Fin 256) :
    pre1 x0 x1 x4 (ix2 p k) = mm x0 x1 (ix2 p k) + x4 (ix2 (0 : Fin 1) k) := by
  unfold pre1
  rw [addf_apply, shapeCast_self, shapeCast_self, broadcastTo_1b_ab_apply,
    Cert.Lib.Dot2.matmul_zero_ix2 dot_S512x4096_S4096x256_S512x256_1_0_0_1_n_n none rfl rfl lhs_adj_s_0 lhs_adj_s_1 rhs_adj_s_0 rhs_adj_s_1,
    mm_ix2]

/-! ## The stored values at an entry -/

theorem k0_pay1_eq (x0 : Vec Ideal S512x4096 .f32) (x1 : Vec Ideal S4096x512 .f32) (x3 : Vec Ideal S512x2048 .f32) (x5 : Vec Ideal S1x2048 .f32)
    (x14 : Vec Ideal S2048x256 .f32) :
    k0_pay1 (F := Ideal) x0 x1 x3 x5 x14
      = matmul (φ₁ := .f32) (φ₂ := .f32) dot_S512x2048_S2048x256_S512x256_1_0_0_1_n_n none
          (select (cmpf .ogt (pre0 x0 x1 x3 x5) (broadcast S512x2048 (Scalar.ofBits .f32 0x00000000#32))) (pre0 x0 x1 x3 x5)
            (mulf (broadcast S512x2048 (Scalar.ofBits .f32 0x3C23D70A#32)) (pre0 x0 x1 x3 x5)))
          x14 (constant S512x256 .f32 0x00000000#32) := rfl

/-- The first body stores `leaky (pre-activation) . W2`. -/
theorem pay0_ix2 (x0 : Vec Ideal S512x4096 .f32) (x1 : Vec Ideal S4096x512 .f32) (x3 : Vec Ideal S512x2048 .f32) (x5 : Vec Ideal S1x2048 .f32)
    (x14 : Vec Ideal S2048x256 .f32) (p : Fin 512) (j : Fin 256) :
    k0_pay1 (F := Ideal) x0 x1 x3 x5 x14 (ix2 p j)
      = mm (act lk (mm (mm x0 x1) x3) (fun k => x5 (ix2 (0 : Fin 1) k))) x14 (ix2 p j) := by
  rw [k0_pay1_eq,
    Cert.Lib.Dot2.matmul_zero_ix2 dot_S512x2048_S2048x256_S512x256_1_0_0_1_n_n none rfl rfl lhs_h_w2_0 lhs_h_w2_1 rhs_h_w2_0 rhs_h_w2_1,
    mm_ix2]
  refine Finset.sum_congr rfl fun k _ => congrArg (· * x14 (ix2 k j)) ?_
  rw [act_ix2, ← pre0_ix2]
  rfl

theorem k1_pay1_eq (x0 : Vec Ideal S512x4096 .f32) (x1 : Vec Ideal S4096x256 .f32) (x4 : Vec Ideal S1x256 .f32) (x10 : Vec Ideal S256x256 .f32) :
    k1_pay1 (F := Ideal) x0 x1 x4 x10
      = matmul (φ₁ := .f32) (φ₂ := .f32) dot_S512x256_S256x256_S512x256_1_0_0_1_n_n none
          (maximumf (pre1 x0 x1 x4) (broadcast S512x256 (Scalar.ofBits .f32 0x00000000#32))) x10
          (constant S512x256 .f32 0x00000000#32) := rfl

/-- The second body stores `relu (pre-activation) . W3`. -/
theorem pay1_ix2 (x0 : Vec Ideal S512x4096 .f32) (x1 : Vec Ideal S4096x256 .f32) (x4 : Vec Ideal S1x256 .f32) (x10 : Vec Ideal S256x256 .f32)
    (p : Fin 512) (j : Fin 256) :
    k1_pay1 (F := Ideal) x0 x1 x4 x10 (ix2 p j)
      = mm (act relu (mm x0 x1) (fun k => x4 (ix2 (0 : Fin 1) k))) x10 (ix2 p j) := by
  rw [k1_pay1_eq,
    Cert.Lib.Dot2.matmul_zero_ix2 dot_S512x256_S256x256_S512x256_1_0_0_1_n_n none rfl rfl lhs_h_w3_0 lhs_h_w3_1 rhs_h_w3_0 rhs_h_w3_1,
    mm_ix2]
  refine Finset.sum_congr rfl fun k _ => congrArg (· * x10 (ix2 k j)) ?_
  rw [act_ix2, ← pre1_ix2]
  rfl

theorem k2_pay1_eq (x0 : Vec Ideal S512x4096 .f32) (x1 : Vec Ideal S4096x256 .f32) (x4 : Vec Ideal S1x256 .f32) :
    k2_pay1 (F := Ideal) x0 x1 x4
      = maximumf (pre1 x0 x1 x4) (broadcast S512x256 (Scalar.ofBits .f32 0x00000000#32)) := rfl

/-- The third body stores `relu (pre-activation)`. -/
theorem pay2_ix2 (x0 : Vec Ideal S512x4096 .f32) (x1 : Vec Ideal S4096x256 .f32) (x4 : Vec Ideal S1x256 .f32) (p : Fin 512) (j : Fin 256) :
    k2_pay1 (F := Ideal) x0 x1 x4 (ix2 p j) = act relu (mm x0 x1) (fun k => x4 (ix2 (0 : Fin 1) k)) (ix2 p j) := by
  rw [k2_pay1_eq, act_ix2, ← pre1_ix2]
  rfl

/-! ## A body on a block of adjacency rows stores that block of rows of the layer -/

theorem pay0_rows (x0 : Vec Ideal S512x4096 .f32) (x1 : Vec Ideal S4096x512 .f32) (x3 : Vec Ideal S512x2048 .f32) (x5 : Vec Ideal S1x2048 .f32)
    (x14 : Vec Ideal S2048x256 .f32) (A : S4096x4096.Idx → EReal) (X : S4096x512.Idx → EReal) (W1 : S512x2048.Idx → EReal)
    (b : S1x2048.Idx → EReal) (W2 : S2048x256.Idx → EReal) (o : Nat) (ho : o + 512 ≤ 4096)
    (h0 : x0 = rows 512 o ho A) (h1 : x1 = X) (h3 : x3 = W1) (h5 : x5 = b) (h14 : x14 = W2) :
    k0_pay1 (F := Ideal) x0 x1 x3 x5 x14
      = rows 512 o ho (layer1 (mm (mm A X) W1) (fun k => b (ix2 (0 : Fin 1) k)) W2) := by
  subst h0 h1 h3 h5 h14
  funext y
  obtain ⟨p, j, rfl⟩ : ∃ (p : Fin 512) (j : Fin 256), y = ix2 p j := ⟨y 0, y 1, eq_ix2 y⟩
  rw [pay0_ix2, mm_rows, mm_rows, act_rows, mm_rows]
  rfl

theorem pay1_rows (x0 : Vec Ideal S512x4096 .f32) (x1 : Vec Ideal S4096x256 .f32) (x4 : Vec Ideal S1x256 .f32) (x10 : Vec Ideal S256x256 .f32)
    (A : S4096x4096.Idx → EReal) (S : S4096x256.Idx → EReal) (b : S1x256.Idx → EReal) (W3 : S256x256.Idx → EReal)
    (o : Nat) (ho : o + 512 ≤ 4096) (h0 : x0 = rows 512 o ho A) (h1 : x1 = S) (h4 : x4 = b) (h10 : x10 = W3) :
    k1_pay1 (F := Ideal) x0 x1 x4 x10 = rows 512 o ho (layer2 A S (fun k => b (ix2 (0 : Fin 1) k)) W3) := by
  subst h0 h1 h4 h10
  funext y
  obtain ⟨p, j, rfl⟩ : ∃ (p : Fin 512) (j : Fin 256), y = ix2 p j := ⟨y 0, y 1, eq_ix2 y⟩
  rw [pay1_ix2, mm_rows, act_rows, mm_rows]
  rfl

theorem pay2_rows (x0 : Vec Ideal S512x4096 .f32) (x1 : Vec Ideal S4096x256 .f32) (x4 : Vec Ideal S1x256 .f32)
    (A : S4096x4096.Idx → EReal) (S : S4096x256.Idx → EReal) (b : S1x256.Idx → EReal)
    (o : Nat) (ho : o + 512 ≤ 4096) (h0 : x0 = rows 512 o ho A) (h1 : x1 = S) (h4 : x4 = b) :
    k2_pay1 (F := Ideal) x0 x1 x4 = rows 512 o ho (layer3 A S (fun k => b (ix2 (0 : Fin 1) k))) := by
  subst h0 h1 h4
  funext y
  obtain ⟨p, j, rfl⟩ : ∃ (p : Fin 512) (j : Fin 256), y = ix2 p j := ⟨y 0, y 1, eq_ix2 y⟩
  rw [pay2_ix2, mm_rows, act_rows]
  rfl

end Cert.KernelIdeal.Pay

end
-- ==== Proof.Blocks.lean ====
/-
  Each launch's result array, after its run, as one function of the arrays the launch finds.

  A launch walks eight grid points; at point `t` the adjacency's window is rows `512 t .. 512 t + 511` (all 4096
  columns), every other input's window is the whole array, and the result's window is rows `512 t .. 512 t + 511`.
  The body leaves in the result's buffer that block of rows of the layer applied to the whole arrays (the layers
  act row by row), the eight blocks tile the 4096 rows, and so the array ends holding the layer.
-/
import proofs.«178905_g61065845015369_cont_9to1c4b_553_2_alg».proof.Proof.Gen.KernelIdeal.Frame
import proofs.«178905_g61065845015369_cont_9to1c4b_553_2_alg».proof.Proof.Pay
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- The block indices over the grid: the adjacency and the result move one block of 512 rows per point; every
    other operand is one whole block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : 512 * t.val + 512 ≤ 4096 := by
  have h : t.val < 8 := lt_of_lt_of_eq t.isLt N_0
  omega

theorem blk0_0 (c : Dev nD) (t : Fin cfg0.N) : iblk0 V c 0 t = rows 512 (512 * t.val) (lt0 t) (V c main_arg1) := by
  funext y
  show V c main_arg1 (((cfg0.win 0).blk t).view.emb y) = V c main_arg1 (ix2 ⟨512 * t.val + (y 0).val, _⟩ ⟨(y 1).val, _⟩)
  refine congrArg (V c main_arg1) (funext fun a => Fin.ext ?_)
  obtain ⟨e0, e1, -⟩ := idx0 t
  match a with
  | ⟨0, _⟩ => show win0_0.index t (0 : Fin 2) * 512 + 1 * (y 0).val = 512 * t.val + (y 0).val; omega
  | ⟨1, _⟩ => show win0_0.index t (1 : Fin 2) * 4096 + 1 * (y 1).val = (y 1).val; omega

theorem blk0_1 (c : Dev nD) (t : Fin cfg0.N) : iblk0 V c 1 t = V c main_arg0 := by
  funext y
  show V c main_arg0 (((cfg0.win 1).blk t).view.emb y) = V c main_arg0 y
  refine congrArg (V c main_arg0) (funext fun a => Fin.ext ?_)
  obtain ⟨-, -, e0, e1, -⟩ := idx0 t
  match a with
  | ⟨0, _⟩ => show win0_1.index t (0 : Fin 2) * 4096 + 1 * (y 0).val = (y 0).val; omega
  | ⟨1, _⟩ => show win0_1.index t (1 : Fin 2) * 512 + 1 * (y 1).val = (y 1).val; omega

theorem blk0_2 (c : Dev nD) (t : Fin cfg0.N) : iblk0 V c 2 t = V c main_arg2 := by
  funext y
  show V c main_arg2 (((cfg0.win 2).blk t).view.emb y) = V c main_arg2 y
  refine congrArg (V c main_arg2) (funext fun a => Fin.ext ?_)
  obtain ⟨-, -, -, -, e0, e1, -⟩ := idx0 t
  match a with
  | ⟨0, _⟩ => show win0_2.index t (0 : Fin 2) * 512 + 1 * (y 0).val = (y 0).val; omega
  | ⟨1, _⟩ => show win0_2.index t (1 : Fin 2) * 2048 + 1 * (y 1).val = (y 1).val; omega

theorem blk0_3 (c : Dev nD) (t : Fin cfg0.N) : iblk0 V c 3 t = V c main_call0_v0 := by
  funext y
  show V c main_call0_v0 (((cfg0.win 3).blk t).view.emb y) = V c main_call0_v0 y
  refine congrArg (V c main_call0_v0) (funext fun a => Fin.ext ?_)
  obtain ⟨-, -, -, -, -, -, e0, e1, -⟩ := idx0 t
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem blk0_4 (c : Dev nD) (t : Fin cfg0.N) : iblk0 V c 4 t = V c main_arg4 := by
  funext y
  show V c main_arg4 (((cfg0.win 4).blk t).view.emb y) = V c main_arg4 y
  refine congrArg (V c main_arg4) (funext fun a => Fin.ext ?_)
  obtain ⟨-, -, -, -, -, -, -, -, e0, e1, -⟩ := idx0 t
  match a with
  | ⟨0, _⟩ => show win0_4.index t (0 : Fin 2) * 2048 + 1 * (y 0).val = (y 0).val; omega
  | ⟨1, _⟩ => show win0_4.index t (1 : Fin 2) * 256 + 1 * (y 1).val = (y 1).val; omega

/-- Point `t`'s block of the result array, read off any array `G`, is rows `512 t .. 512 t + 511` of `G`. -/
theorem oblk0 (t : Fin cfg0.N) (G : S4096x256.Idx → EReal) :
    ((cfg0.win 5).blk t).view.read (Elt Ideal) G = rows 512 (512 * t.val) (lt0 t) G := by
  funext y
  show G (((cfg0.win 5).blk t).view.emb y) = G (ix2 ⟨512 * t.val + (y 0).val, _⟩ ⟨(y 1).val, _⟩)
  refine congrArg G (funext fun a => Fin.ext ?_)
  obtain ⟨-, -, -, -, -, -, -, -, -, -, e0, e1⟩ := idx0 t
  match a with
  | ⟨0, _⟩ => show win0_5.index t (0 : Fin 2) * 512 + 1 * (y 0).val = 512 * t.val + (y 0).val; omega
  | ⟨1, _⟩ => show win0_5.index t (1 : Fin 2) * 256 + 1 * (y 1).val = (y 1).val; omega

/-- The first launch's result as one function of the arrays it finds. -/
abbrev G0 (c : Dev nD) : S4096x256.Idx → EReal :=
  layer1 (mm (mm (V c main_arg1) (V c main_arg0)) (V c main_arg2)) (fun k => V c main_call0_v0 (ix2 (0 : Fin 1) k)) (V c main_arg4)

/-- What point `t` writes back is its block of rows of `G0`. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S512x4096) hz, View.ld_unit_zero (S := S4096x512) hz, View.ld_unit_zero (S := S512x2048) hz,
    View.ld_unit_zero (S := S1x2048) hz, View.ld_unit_zero (S := S2048x256) hz]
  rw [oblk0]
  exact Pay.pay0_rows (iblk0 V c 0 t) (iblk0 V c 1 t) (iblk0 V c 2 t) (iblk0 V c 3 t) (iblk0 V c 4 t)
    (V c main_arg1) (V c main_arg0) (V c main_arg2) (V c main_call0_v0) (V c main_arg4) (512 * t.val) (lt0 t)
    (blk0_0 V c t) (blk0_1 V c t) (blk0_2 V c t) (blk0_3 V c t) (blk0_4 V c t)

/-- An index of the result array is in point `t`'s block iff each coordinate is in the block's range. -/
theorem mem_oblk0 (t : Fin cfg0.N) (i : S4096x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_call0_v3).slice (win0_5.rect t)).set ↔ _
  rw [View.set_slice_whole, Rect.mem_set_unit]
  exact Iff.rfl

/-- Row `r` of the result is written by point `r / 512`: the blocks cover the array. -/
theorem cover0 (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  have ht : (i 0).val / 512 < cfg0.N := lt_of_lt_of_eq (by omega : (i 0).val / 512 < 8) N_0.symm
  refine ⟨⟨(i 0).val / 512, ht⟩, flush0_5 _, ?_⟩
  rw [mem_oblk0]
  obtain ⟨-, -, -, -, -, -, -, -, -, -, e0, e1⟩ := idx0 ⟨(i 0).val / 512, ht⟩
  have e0' : win0_5.index ⟨(i 0).val / 512, ht⟩ (0 : Fin 2) = (i 0).val / 512 := e0
  intro a
  match a with
  | ⟨0, _⟩ => show win0_5.index ⟨(i 0).val / 512, ht⟩ (0 : Fin 2) * 512 ≤ (i 0).val ∧ (i 0).val < win0_5.index ⟨(i 0).val / 512, ht⟩ (0 : Fin 2) * 512 + 512; omega
  | ⟨1, _⟩ => show win0_5.index ⟨(i 0).val / 512, ht⟩ (1 : Fin 2) * 256 ≤ (i 1).val ∧ (i 1).val < win0_5.index ⟨(i 0).val / 512, ht⟩ (1 : Fin 2) * 256 + 256; omega

/-- THE FIRST LAUNCH'S RESULT ARRAY after its run. -/
theorem final0 (c : Dev nD) : (dat0 V c).arrAt 5 cfg0.N = G0 V c :=
  (dat0 V c).arrAt_eq_of_cover 5 (G0 V c) (fun t _ => flushed0 V c t) cover0

/-! ## The second launch -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt1 (t : Fin cfg1.N) : 512 * t.val + 512 ≤ 4096 := by
  have h : t.val < 8 := lt_of_lt_of_eq t.isLt N_1
  omega

theorem blk1_0 (c : Dev nD) (t : Fin cfg1.N) : iblk1 V c 0 t = rows 512 (512 * t.val) (lt1 t) (V c main_arg1) := by
  funext y
  show V c main_arg1 (((cfg1.win 0).blk t).view.emb y) = V c main_arg1 (ix2 ⟨512 * t.val + (y 0).val, _⟩ ⟨(y 1).val, _⟩)
  refine congrArg (V c main_arg1) (funext fun a => Fin.ext ?_)
  obtain ⟨e0, e1, -⟩ := idx1 t
  match a with
  | ⟨0, _⟩ => show win1_0.index t (0 : Fin 2) * 512 + 1 * (y 0).val = 512 * t.val + (y 0).val; omega
  | ⟨1, _⟩ => show win1_0.index t (1 : Fin 2) * 4096 + 1 * (y 1).val = (y 1).val; omega

theorem blk1_1 (c : Dev nD) (t : Fin cfg1.N) : iblk1 V c 1 t = V c main_call0_v3 := by
  funext y
  show V c main_call0_v3 (((cfg1.win 1).blk t).view.emb y) = V c main_call0_v3 y
  refine congrArg (V c main_call0_v3) (funext fun a => Fin.ext ?_)
  obtain ⟨-, -, e0, e1, -⟩ := idx1 t
  match a with
  | ⟨0, _⟩ => show win1_1.index t (0 : Fin 2) * 4096 + 1 * (y 0).val = (y 0).val; omega
  | ⟨1, _⟩ => show win1_1.index t (1 : Fin 2) * 256 + 1 * (y 1).val = (y 1).val; omega

theorem blk1_2 (c : Dev nD) (t : Fin cfg1.N) : iblk1 V c 2 t = V c main_call0_v1 := by
  funext y
  show V c main_call0_v1 (((cfg1.win 2).blk t).view.emb y) = V c main_call0_v1 y
  refine congrArg (V c main_call0_v1) (funext fun a => Fin.ext ?_)
  obtain ⟨-, -, -, -, e0, e1, -⟩ := idx1 t
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem blk1_3 (c : Dev nD) (t : Fin cfg1.N) : iblk1 V c 3 t = V c main_arg6 := by
  funext y
  show V c main_arg6 (((cfg1.win 3).blk t).view.emb y) = V c main_arg6 y
  refine congrArg (V c main_arg6) (funext fun a => Fin.ext ?_)
  obtain ⟨-, -, -, -, -, -, e0, e1, -⟩ := idx1 t
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem oblk1 (t : Fin cfg1.N) (G : S4096x256.Idx → EReal) :
    ((cfg1.win 4).blk t).view.read (Elt Ideal) G = rows 512 (512 * t.val) (lt1 t) G := by
  funext y
  show G (((cfg1.win 4).blk t).view.emb y) = G (ix2 ⟨512 * t.val + (y 0).val, _⟩ ⟨(y 1).val, _⟩)
  refine congrArg G (funext fun a => Fin.ext ?_)
  obtain ⟨-, -, -, -, -, -, -, -, e0, e1⟩ := idx1 t
  match a with
  | ⟨0, _⟩ => show win1_4.index t (0 : Fin 2) * 512 + 1 * (y 0).val = 512 * t.val + (y 0).val; omega
  | ⟨1, _⟩ => show win1_4.index t (1 : Fin 2) * 256 + 1 * (y 1).val = (y 1).val; omega

/-- The second launch's result as one function of the arrays it finds. -/
abbrev G1 (c : Dev nD) : S4096x256.Idx → EReal :=
  layer2 (V c main_arg1) (V c main_call0_v3) (fun k => V c main_call0_v1 (ix2 (0 : Fin 1) k)) (V c main_arg6)

theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x256) hz, View.ld_unit_zero (S := S1x256) hz,
    View.ld_unit_zero (S := S256x256) hz]
  rw [oblk1]
  exact Pay.pay1_rows (iblk1 V c 0 t) (iblk1 V c 1 t) (iblk1 V c 2 t) (iblk1 V c 3 t)
    (V c main_arg1) (V c main_call0_v3) (V c main_call0_v1) (V c main_arg6) (512 * t.val) (lt1 t)
    (blk1_0 V c t) (blk1_1 V c t) (blk1_2 V c t) (blk1_3 V c t)

theorem mem_oblk1 (t : Fin cfg1.N) (i : S4096x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_call0_v4).slice (win1_4.rect t)).set ↔ _
  rw [View.set_slice_whole, Rect.mem_set_unit]
  exact Iff.rfl

theorem cover1 (i : S4096x256.Idx) : ∃ t : Fin cfg1.N, (cfg1.win 4).flush t = true ∧ i ∈ ((cfg1.win 4).blk t).view.set := by
  have hi0 : (i 0).val < 4096 := (i 0).isLt
  have hi1 : (i 1).val < 256 := (i 1).isLt
  have ht : (i 0).val / 512 < cfg1.N := lt_of_lt_of_eq (by omega : (i 0).val / 512 < 8) N_1.symm
  refine ⟨⟨(i 0).val / 512, ht⟩, flush1_4 _, ?_⟩
  rw [mem_oblk1]
  obtain ⟨-, -, -, -, -, -, -, -, e0, e1⟩ := idx1 ⟨(i 0).val / 512, ht⟩
  have e0' : win1_4.index ⟨(i 0).val / 512, ht⟩ (0 : Fin 2) = (i 0).val / 512 := e0
  intro a
  match a with
  | ⟨0, _⟩ => show win1_4.index ⟨(i 0).val / 512, ht⟩ (0 : Fin 2) * 512 ≤ (i 0).val ∧ (i 0).val < win1_4.index ⟨(i 0).val / 512, ht⟩ (0 : Fin 2) * 512 + 512; omega
  | ⟨1, _⟩ => show win1_4.index ⟨(i 0).val / 512, ht⟩ (1 : Fin 2) * 256 ≤ (i 1).val ∧ (i 1).val < win1_4.index ⟨(i 0).val / 512, ht⟩ (1 : Fin 2) * 256 + 256; omega

/-- THE SECOND LAUNCH'S RESULT ARRAY after its run. -/
theorem final1 (c : Dev nD) : (dat1 V c).arrAt 4 cfg1.N = G1 V c :=
  (dat1 V c).arrAt_eq_of_cover 4 (G1 V c) (fun t _ => flushed1 V c t) cover1

/-! ## The third launch -/

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) : 512 * t.val + 512 ≤ 4096 := by
  have h : t.val < 8 := lt_of_lt_of_eq t.isLt N_2
  omega

theorem blk2_0 (c : Dev nD) (t : Fin cfg2.N) : iblk2 V c 0 t = rows 512 (512 * t.val) (lt2 t) (V c main_arg1) := by
  funext y
  show V c main_arg1 (((cfg2.win 0).blk t).view.emb y) = V c main_arg1 (ix2 ⟨512 * t.val + (y 0).val, _⟩ ⟨(y 1).val, _⟩)
  refine congrArg (V c main_arg1) (funext fun a => Fin.ext ?_)
  obtain ⟨e0, e1, -⟩ := idx2 t
  match a with
  | ⟨0, _⟩ => show win2_0.index t (0 : Fin 2) * 512 + 1 * (y 0).val = 512 * t.val + (y 0).val; omega
  | ⟨1, _⟩ => show win2_0.index t (1 : Fin 2) * 4096 + 1 * (y 1).val = (y 1).val; omega

theorem blk2_1 (c : Dev nD) (t : Fin cfg2.N) : iblk2 V c 1 t = V c main_call0_v4 := by
  funext y
  show V c main_call0_v4 (((cfg2.win 1).blk t).view.emb y) = V c main_call0_v4 y
  refine congrArg (V c main_call0_v4) (funext fun a => Fin.ext ?_)
  obtain ⟨-, -, e0, e1, -⟩ := idx2 t
  match a with
  | ⟨0, _⟩ => show win2_1.index t (0 : Fin 2) * 4096 + 1 * (y 0).val = (y 0).val; omega
  | ⟨1, _⟩ => show win2_1.index t (1 : Fin 2) * 256 + 1 * (y 1).val = (y 1).val; omega

theorem blk2_2 (c : Dev nD) (t : Fin cfg2.N) : iblk2 V c 2 t = V c main_call0_v2 := by
  funext y
  show V c main_call0_v2 (((cfg2.win 2).blk t).view.emb y) = V c main_call0_v2 y
  refine congrArg (V c main_call0_v2) (funext fun a => Fin.ext ?_)
  obtain ⟨-, -, -, -, e0, e1, -⟩ := idx2 t
  match a with
  | ⟨0, _⟩ => show win2_2.index t (0 : Fin 2) * 1 + 1 * (y 0).val = (y 0).val; omega
  | ⟨1, _⟩ => show win2_2.index t (1 : Fin 2) * 256 + 1 * (y 1).val = (y 1).val; omega

theorem oblk2 (t : Fin cfg2.N) (G : S4096x256.Idx → EReal) :
    ((cfg2.win 3).blk t).view.read (Elt Ideal) G = rows 512 (512 * t.val) (lt2 t) G := by
  funext y
  show G (((cfg2.win 3).blk t).view.emb y) = G (ix2 ⟨512 * t.val + (y 0).val, _⟩ ⟨(y 1).val, _⟩)
  refine congrArg G (funext fun a => Fin.ext ?_)
  obtain ⟨-, -, -, -, -, -, e0, e1⟩ := idx2 t
  match a with
  | ⟨0, _⟩ => show win2_3.index t (0 : Fin 2) * 512 + 1 * (y 0).val = 512 * t.val + (y 0).val; omega
  | ⟨1, _⟩ => show win2_3.index t (1 : Fin 2) * 256 + 1 * (y 1).val = (y 1).val; omega

/-- The third launch's result as one function of the arrays it finds. -/
abbrev G2 (c : Dev nD) : S4096x256.Idx → EReal :=
  layer3 (V c main_arg1) (V c main_call0_v4) (fun k => V c main_call0_v2 (ix2 (0 : Fin 1) k))

theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S512x4096) hz, View.ld_unit_zero (S := S4096x256) hz, View.ld_unit_zero (S := S1x256) hz]
  rw [oblk2]
  exact Pay.pay2_rows (iblk2 V c 0 t) (iblk2 V c 1 t) (iblk2 V c 2 t)
    (V c main_arg1) (V c main_call0_v4) (V c main_call0_v2) (512 * t.val) (lt2 t)
    (blk2_0 V c t) (blk2_1 V c t) (blk2_2 V c t)

theorem mem_oblk2 (t : Fin cfg2.N) (i : S4096x256.Idx) :
    i ∈ ((cfg2.win 3).blk t).view.set ↔ ∀ a : Fin 2, win2_3.index t a * S512x256.size a ≤ (i a).val ∧ (i a).val < win2_3.index t a * S512x256.size a + S512x256.size a := by
  show i ∈ ((View.whole main_v0).slice (win2_3.rect t)).set ↔ _
  rw [View.set_slice_whole, Rect.mem_set_unit]
  exact Iff.rfl

theorem cover2 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have ht : (i 0).val / 512 < cfg2.N := lt_of_lt_of_eq (by omega : (i 0).val / 512 < 8) N_2.symm
  refine ⟨⟨(i 0).val / 512, ht⟩, flush2_3 _, ?_⟩
  rw [mem_oblk2]
  obtain ⟨-, -, -, -, -, -, e0, e1⟩ := idx2 ⟨(i 0).val / 512, ht⟩
  have e0' : win2_3.index ⟨(i 0).val / 512, ht⟩ (0 : Fin 2) = (i 0).val / 512 := e0
  intro a
  match a with
  | ⟨0, _⟩ => show win2_3.index ⟨(i 0).val / 512, ht⟩ (0 : Fin 2) * 512 ≤ (i 0).val ∧ (i 0).val < win2_3.index ⟨(i 0).val / 512, ht⟩ (0 : Fin 2) * 512 + 512; omega
  | ⟨1, _⟩ => show win2_3.index ⟨(i 0).val / 512, ht⟩ (1 : Fin 2) * 256 ≤ (i 1).val ∧ (i 1).val < win2_3.index ⟨(i 0).val / 512, ht⟩ (1 : Fin 2) * 256 + 256; omega

/-- THE THIRD LAUNCH'S RESULT ARRAY after its run. -/
theorem final2 (c : Dev nD) : (dat2 V c).arrAt 3 cfg2.N = G2 V c :=
  (dat2 V c).arrAt_eq_of_cover 3 (G2 V c) (fun t _ => flushed2 V c t) cover2

end Cert.KernelIdeal.Blocks

end
-- ==== Proof.Chain.lean ====
/-
  The result array at the last boundary, read back through the three launches to the launch memory.

  The host stretch before the first launch only reshapes the three biases to one-row arrays. Each launch leaves its
  inputs as it found them and its result array at the layer of what it found (the closed forms of the launches);
  buffers a launch does not name keep their contents. Reading the last boundary's result array back through these
  facts gives the network of the specification, its first product bracketed `(A . x) . W1`, of the launch memory's
  argument arrays.
-/
import proofs.«178905_g61065845015369_cont_9to1c4b_553_2_alg».proof.Proof.Gen.KernelIdeal.Frame
import proofs.«178905_g61065845015369_cont_9to1c4b_553_2_alg».proof.Proof.Blocks
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Blocks Cert.Spec

variable (m : (ℓ : Loc nD τ sig) → Buf (Elt Ideal) ℓ) (ρ : Dev nD → PrngReg)

/-! ## The host stretch: the biases as one-row arrays, the arguments untouched -/

theorem V1_b1 (c : Dev nD) : (V1 m ρ c main_call0_v0 : S1x2048.Idx → EReal)
    = shapeCast S1x2048 (m ((c : Thread nD τ).loc main_arg3)) shapeCasts_S2048_S1x2048 := by
  show StableHlo.after hostOps0 (W0 m ρ c) (Proc.devRef .tc main_call0_v0) = _
  after_results
  rfl

theorem V1_b2 (c : Dev nD) : (V1 m ρ c main_call0_v1 : S1x256.Idx → EReal)
    = shapeCast S1x256 (m ((c : Thread nD τ).loc main_arg5)) shapeCasts_S256_S1x256 := by
  show StableHlo.after hostOps0 (W0 m ρ c) (Proc.devRef .tc main_call0_v1) = _
  after_results
  rfl

theorem V1_b3 (c : Dev nD) : (V1 m ρ c main_call0_v2 : S1x256.Idx → EReal)
    = shapeCast S1x256 (m ((c : Thread nD τ).loc main_arg7)) shapeCasts_S256_S1x256 := by
  show StableHlo.after hostOps0 (W0 m ρ c) (Proc.devRef .tc main_call0_v2) = _
  after_results
  rfl

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg6 (c : Dev nD) : V1 m ρ c main_arg6 = m ((c : Thread nD τ).loc main_arg6) := by
  show StableHlo.after hostOps0 (W0 m ρ c) (Proc.devRef .tc main_arg6) = _
  after_results

/-- A bias row read at `(0, k)` is the bias at `k`. -/
theorem bias1 (c : Dev nD) : (fun k : Fin 2048 => V1 m ρ c main_call0_v0 (ix2 (0 : Fin 1) k))
    = fun k => m ((c : Thread nD τ).loc main_arg3) (ix1 k) :=
  funext fun k => by rw [V1_b1]; exact shapeCast_a_1a_apply _ _ 0 k

theorem bias2 (c : Dev nD) : (fun k : Fin 256 => V1 m ρ c main_call0_v1 (ix2 (0 : Fin 1) k))
    = fun k => m ((c : Thread nD τ).loc main_arg5) (ix1 k) :=
  funext fun k => by rw [V1_b2]; exact shapeCast_a_1a_apply _ _ 0 k

theorem bias3 (c : Dev nD) : (fun k : Fin 256 => V1 m ρ c main_call0_v2 (ix2 (0 : Fin 1) k))
    = fun k => m ((c : Thread nD τ).loc main_arg7) (ix1 k) :=
  funext fun k => by rw [V1_b3]; exact shapeCast_a_1a_apply _ _ 0 k

/-! ## After the first launch -/

theorem V2_s2 (c : Dev nD) : V2 m ρ c main_call0_v3 = G0 (V1 m ρ) c :=
  (W2_arr m ρ c 5).trans (final0 (V1 m ρ) c)

theorem V2_arg1 (c : Dev nD) : V2 m ρ c main_arg1 = V1 m ρ c main_arg1 :=
  (W2_arr m ρ c 0).trans (((dat0 (V1 m ρ) c).arrAt_in 0 rfl _).trans (A_eq0 (V1 m ρ) c 0))

theorem V2_b2 (c : Dev nD) : V2 m ρ c main_call0_v1 = V1 m ρ c main_call0_v1 := W2_of_ne m ρ c main_call0_v1 (by decide)

theorem V2_b3 (c : Dev nD) : V2 m ρ c main_call0_v2 = V1 m ρ c main_call0_v2 := W2_of_ne m ρ c main_call0_v2 (by decide)

theorem V2_arg6 (c : Dev nD) : V2 m ρ c main_arg6 = V1 m ρ c main_arg6 := W2_of_ne m ρ c main_arg6 (by decide)

/-! ## After the second launch -/

theorem V3_s3 (c : Dev nD) : V3 m ρ c main_call0_v4 = G1 (V2 m ρ) c :=
  (W3_arr m ρ c 4).trans (final1 (V2 m ρ) c)

theorem V3_arg1 (c : Dev nD) : V3 m ρ c main_arg1 = V2 m ρ c main_arg1 :=
  (W3_arr m ρ c 0).trans (((dat1 (V2 m ρ) c).arrAt_in 0 rfl _).trans (A_eq1 (V2 m ρ) c 0))

theorem V3_b3 (c : Dev nD) : V3 m ρ c main_call0_v2 = V2 m ρ c main_call0_v2 := W3_of_ne m ρ c main_call0_v2 (by decide)

/-! ## After the third launch -/

theorem out_eq (c : Dev nD) : W4 m ρ c (Proc.devRef .tc main_v0) = G2 (V3 m ρ) c :=
  (W4_arr m ρ c 3).trans (final2 (V3 m ρ) c)

/-- THE KERNEL'S RESULT: the network, its first product bracketed `(A . x) . W1`, of the launch memory. -/
theorem kernel_value (c : Dev nD) :
    W4 m ρ c (Proc.devRef .tc main_v0)
      = net (mm (mm (m ((c : Thread nD τ).loc main_arg1)) (m ((c : Thread nD τ).loc main_arg0))) (m ((c : Thread nD τ).loc main_arg2))) (m ((c : Thread nD τ).loc main_arg1))
          (fun k => (m ((c : Thread nD τ).loc main_arg3)) (ix1 k)) (m ((c : Thread nD τ).loc main_arg4)) (fun k => (m ((c : Thread nD τ).loc main_arg5)) (ix1 k)) (m ((c : Thread nD τ).loc main_arg6)) (fun k => (m ((c : Thread nD τ).loc main_arg7)) (ix1 k)) := by
  rw [out_eq]
  unfold G2
  rw [V3_s3]
  unfold G1
  rw [V2_s2]
  unfold G0
  rw [V3_b3, V2_b3, bias3, V2_b2, bias2, bias1, V3_arg1, V2_arg1, V2_arg6, V1_arg0, V1_arg1, V1_arg2, V1_arg4, V1_arg6]
  rfl

end Cert.KernelIdeal.Chain

end
-- ==== Proof.RefSide.lean ====
/-
  The reference's result, stage by stage, is the network of the specification with its first product bracketed
  `A . (x . W1)`.

  Each host matrix product is the specification's product (the sum over the contracted index of left times right);
  each bias is broadcast along the rows, so the value added at `(p, k)` is the bias at `k`; the leaky rectifier is a
  compare, a product with the slope literal and a select, entry by entry; the rectifier is a maximum with zero.
-/
import proofs.«178905_g61065845015369_cont_9to1c4b_553_2_alg».proof.Defs
import proofs.«178905_g61065845015369_cont_9to1c4b_553_2_alg».proof.Proof.Gen.ReferenceIdeal.Run
import proofs.«178905_g61065845015369_cont_9to1c4b_553_2_alg».proof.Proof.Gen.ReferenceIdeal.Read
import proofs.«178905_g61065845015369_cont_9to1c4b_553_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Spec

/-- A function that is, at every index, the sum over the contracted index of the left operand along the index's
    row times the right operand along its column is the product. -/
theorem mm_of_sum {M K N : Nat} (l : (⟨2, ![M, K]⟩ : Shape).Idx → EReal) (r : (⟨2, ![K, N]⟩ : Shape).Idx → EReal)
    (lidx : (⟨2, ![M, N]⟩ : Shape).Idx → Fin K → (⟨2, ![M, K]⟩ : Shape).Idx)
    (ridx : (⟨2, ![M, N]⟩ : Shape).Idx → Fin K → (⟨2, ![K, N]⟩ : Shape).Idx)
    (hl : ∀ i a, lidx i a = ix2 ⟨(i 0).val, (i 0).isLt⟩ a) (hr : ∀ i a, ridx i a = ix2 a ⟨(i 1).val, (i 1).isLt⟩)
    (f : (⟨2, ![M, N]⟩ : Shape).Idx → EReal) (hf : ∀ i, f i = ∑ k : Fin K, l (lidx i k) * r (ridx i k)) : f = mm l r := by
  funext i
  rw [hf i]
  unfold mm
  exact Finset.sum_congr rfl fun a _ => by rw [hl, hr]; rfl

/-- A function that is, at every index, the activation of a pre-activation plus the bias at the index's column. -/
theorem act_of {M N : Nat} (f : EReal → EReal) (P : (⟨2, ![M, N]⟩ : Shape).Idx → EReal) (b : Fin N → EReal)
    (g : (⟨2, ![M, N]⟩ : Shape).Idx → EReal) (hg : ∀ i, g i = f (P i + b ⟨(i 1).val, (i 1).isLt⟩)) : g = act f P b :=
  funext hg

variable (x0 : S4096x512.Idx → EReal) (x1 : S4096x4096.Idx → EReal) (x2 : S512x2048.Idx → EReal) (x3 : S2048.Idx → EReal)
  (x4 : S2048x256.Idx → EReal) (x5 : S256.Idx → EReal) (x6 : S256x256.Idx → EReal) (x7 : S256.Idx → EReal)

/-! ## The first layer -/

theorem v0_eq : val_main_v0 (F := Ideal) x0 x2 = mm x0 x2 :=
  mm_of_sum x0 x2 lidx_main_v0 ridx_main_v0 (fun i a => funext fun d => by match d with | ⟨0, _⟩ => rfl | ⟨1, _⟩ => rfl) (fun i a => funext fun d => by match d with | ⟨0, _⟩ => rfl | ⟨1, _⟩ => rfl) _ (val_main_v0_apply x0 x2)

theorem v1_eq : val_main_v1 (F := Ideal) x0 x1 x2 = mm x1 (mm x0 x2) := by
  rw [← v0_eq]
  exact mm_of_sum x1 (val_main_v0 (F := Ideal) x0 x2) lidx_main_v1 ridx_main_v1 (fun i a => funext fun d => by match d with | ⟨0, _⟩ => rfl | ⟨1, _⟩ => rfl) (fun i a => funext fun d => by match d with | ⟨0, _⟩ => rfl | ⟨1, _⟩ => rfl) _ (val_main_v1_apply x0 x1 x2)

theorem v4_apply (i : S4096x2048.Idx) :
    val_main_v4 (F := Ideal) x0 x1 x2 x3 i = val_main_v1 (F := Ideal) x0 x1 x2 i + x3 (ix1 ⟨(i 1).val, (i 1).isLt⟩) := by
  rw [val_main_v4_apply, val_main_v3_apply, val_main_v2_apply]
  have e : idx_main_v2 (idx_main_v3 i) = ix1 ⟨(i 1).val, (i 1).isLt⟩ := funext fun d => by match d with | ⟨0, _⟩ => rfl
  rw [e]
  rfl

theorem v9_eq : val_main_v9 (F := Ideal) x0 x1 x2 x3 = act lk (val_main_v1 (F := Ideal) x0 x1 x2) (fun k => x3 (ix1 k)) := by
  refine act_of lk _ _ _ fun i => ?_
  rw [val_main_v9_apply, val_main_v6_apply, val_main_v8_apply, val_main_v5_apply, val_main_v7_apply, val_main_cst_apply,
    val_main_cst_0_apply, v4_apply]
  rfl

theorem v10_eq : val_main_v10 (F := Ideal) x0 x1 x2 x3 x4 = mm (val_main_v9 (F := Ideal) x0 x1 x2 x3) x4 :=
  mm_of_sum (val_main_v9 (F := Ideal) x0 x1 x2 x3) x4 lidx_main_v10 ridx_main_v10 (fun i a => funext fun d => by match d with | ⟨0, _⟩ => rfl | ⟨1, _⟩ => rfl) (fun i a => funext fun d => by match d with | ⟨0, _⟩ => rfl | ⟨1, _⟩ => rfl) _ (val_main_v10_apply x0 x1 x2 x3 x4)

/-! ## The second layer -/

theorem v11_eq : val_main_v11 (F := Ideal) x0 x1 x2 x3 x4 = mm x1 (val_main_v10 (F := Ideal) x0 x1 x2 x3 x4) :=
  mm_of_sum x1 (val_main_v10 (F := Ideal) x0 x1 x2 x3 x4) lidx_main_v11 ridx_main_v11 (fun i a => funext fun d => by match d with | ⟨0, _⟩ => rfl | ⟨1, _⟩ => rfl) (fun i a => funext fun d => by match d with | ⟨0, _⟩ => rfl | ⟨1, _⟩ => rfl) _ (val_main_v11_apply x0 x1 x2 x3 x4)

theorem v15_eq : val_main_v15 (F := Ideal) x0 x1 x2 x3 x4 x5
    = act relu (val_main_v11 (F := Ideal) x0 x1 x2 x3 x4) (fun k => x5 (ix1 k)) := by
  refine act_of relu _ _ _ fun i => ?_
  rw [val_main_v15_apply, val_main_call1_v0_apply, val_main_call1_cst_apply, val_main_v14_apply, val_main_v13_apply, val_main_v12_apply]
  have e : idx_main_v12 (idx_main_v13 i) = ix1 ⟨(i 1).val, (i 1).isLt⟩ := funext fun d => by match d with | ⟨0, _⟩ => rfl
  rw [e]
  rfl

theorem v16_eq : val_main_v16 (F := Ideal) x0 x1 x2 x3 x4 x5 x6 = mm (val_main_v15 (F := Ideal) x0 x1 x2 x3 x4 x5) x6 :=
  mm_of_sum (val_main_v15 (F := Ideal) x0 x1 x2 x3 x4 x5) x6 lidx_main_v16 ridx_main_v16 (fun i a => funext fun d => by match d with | ⟨0, _⟩ => rfl | ⟨1, _⟩ => rfl) (fun i a => funext fun d => by match d with | ⟨0, _⟩ => rfl | ⟨1, _⟩ => rfl) _ (val_main_v16_apply x0 x1 x2 x3 x4 x5 x6)

/-! ## The third layer -/

theorem v17_eq : val_main_v17 (F := Ideal) x0 x1 x2 x3 x4 x5 x6 = mm x1 (val_main_v16 (F := Ideal) x0 x1 x2 x3 x4 x5 x6) :=
  mm_of_sum x1 (val_main_v16 (F := Ideal) x0 x1 x2 x3 x4 x5 x6) lidx_main_v17 ridx_main_v17 (fun i a => funext fun d => by match d with | ⟨0, _⟩ => rfl | ⟨1, _⟩ => rfl) (fun i a => funext fun d => by match d with | ⟨0, _⟩ => rfl | ⟨1, _⟩ => rfl) _ (val_main_v17_apply x0 x1 x2 x3 x4 x5 x6)

theorem v21_eq : val_main_v21 (F := Ideal) x0 x1 x2 x3 x4 x5 x6 x7
    = act relu (val_main_v17 (F := Ideal) x0 x1 x2 x3 x4 x5 x6) (fun k => x7 (ix1 k)) := by
  refine act_of relu _ _ _ fun i => ?_
  rw [val_main_v21_apply, val_main_call2_v0_apply, val_main_call2_cst_apply, val_main_v20_apply, val_main_v19_apply, val_main_v18_apply]
  have e : idx_main_v18 (idx_main_v19 i) = ix1 ⟨(i 1).val, (i 1).isLt⟩ := funext fun d => by match d with | ⟨0, _⟩ => rfl
  rw [e]
  rfl

/-! ## The whole reference -/

/-- The reference's result is the network with its first product bracketed `A . (x . W1)`. -/
theorem result_eq : val_main_v21 (F := Ideal) x0 x1 x2 x3 x4 x5 x6 x7
    = net (mm x1 (mm x0 x2)) x1 (fun k => x3 (ix1 k)) x4 (fun k => x5 (ix1 k)) x6 (fun k => x7 (ix1 k)) := by
  unfold net layer3 layer2 layer1
  rw [v21_eq, v17_eq, v16_eq, v15_eq, v11_eq, v10_eq, v9_eq, v1_eq]

end Cert.ReferenceIdeal.RefValue

end
-- ==== Proof.lean ====
/-
  The certificate of the three-layer graph convolution kernel against its reference: `Cert.Claim`.

  The kernel is three launches, each streaming the 4096 x 4096 adjacency `A` in eight blocks of 512 rows:

      S2  = leaky ((A . x) . W1 + b1) . W2
      S3  = relu (A . S2 + b2) . W3
      out = relu (A . S3 + b3)

  and the reference computes `out` with every product `A . (h . W)`: in the second and third layers that is the
  kernel's own bracketing (`S2 = h1 . W2`, `S3 = h2 . W3`), in the first it is `A . (x . W1)` against the kernel's
  `(A . x) . W1`. On the extended reals the two bracketings of the triple product agree when `A`, `x` and `W1` have real
  entries, which is what the precondition says of them; nothing else of the precondition is used.

  The three frames are the generated ones (the reference's is its generated run with the result dropped); no
  operation was rewritten by the idealization, so `preserves` asks nothing. For `algebraic`: the kernel's run is the
  generated launch with the result array named (Proof/KRun.lean), that array read back through the three launches
  to the network of the specification (Proof/Blocks.lean over Proof/Pay.lean, then Proof/Chain.lean); the
  reference's generated run is the same network with the other bracketing (Proof/RefSide.lean); and the bracketings
  agree (Proof/Spec.lean `mm_assoc`, with Proof/PreReal.lean).
-/
import proofs.«178905_g61065845015369_cont_9to1c4b_553_2_alg».proof.Defs
import proofs.«178905_g61065845015369_cont_9to1c4b_553_2_alg».proof.Proof.Gen.Kernel
import proofs.«178905_g61065845015369_cont_9to1c4b_553_2_alg».proof.Proof.Gen.Kernel.Skeleton
import proofs.«178905_g61065845015369_cont_9to1c4b_553_2_alg».proof.Proof.Gen.Kernel.Launch
import proofs.«178905_g61065845015369_cont_9to1c4b_553_2_alg».proof.Proof.Gen.Kernel.Points
import proofs.«178905_g61065845015369_cont_9to1c4b_553_2_alg».proof.Proof.Gen.Kernel.Frame
import proofs.«178905_g61065845015369_cont_9to1c4b_553_2_alg».proof.Proof.Gen.KernelIdeal
import proofs.«178905_g61065845015369_cont_9to1c4b_553_2_alg».proof.Proof.Gen.KernelIdeal.Skeleton
import proofs.«178905_g61065845015369_cont_9to1c4b_553_2_alg».proof.Proof.Gen.KernelIdeal.Launch
import proofs.«178905_g61065845015369_cont_9to1c4b_553_2_alg».proof.Proof.Gen.KernelIdeal.Points
import proofs.«178905_g61065845015369_cont_9to1c4b_553_2_alg».proof.Proof.Gen.KernelIdeal.Frame
import proofs.«178905_g61065845015369_cont_9to1c4b_553_2_alg».proof.Proof.Gen.ReferenceIdeal
import proofs.«178905_g61065845015369_cont_9to1c4b_553_2_alg».proof.Proof.Gen.ReferenceIdeal.Run
import proofs.«178905_g61065845015369_cont_9to1c4b_553_2_alg».proof.Proof.Gen.ReferenceIdeal.Read
import proofs.«178905_g61065845015369_cont_9to1c4b_553_2_alg».proof.Proof.Gen.Pre_finite_inputs
import proofs.«178905_g61065845015369_cont_9to1c4b_553_2_alg».proof.Proof.Spec
import proofs.«178905_g61065845015369_cont_9to1c4b_553_2_alg».proof.Proof.PreReal
import proofs.«178905_g61065845015369_cont_9to1c4b_553_2_alg».proof.Proof.KRun
import proofs.«178905_g61065845015369_cont_9to1c4b_553_2_alg».proof.Proof.Chain
import proofs.«178905_g61065845015369_cont_9to1c4b_553_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the specification of the same argument arrays; the kernel's first product is
    bracketed `(A . x) . W1`, the reference's `A . (x . W1)`, and these agree since the three factors have real entries. -/
theorem algebraic : Cert.algebraic_KernelIdeal_ReferenceIdeal := by
  intro m ρ m' ρ' hpre hagree
  refine ⟨fun c => Cert.KernelIdeal.Gen.W4 m ρ c (Proc.devRef .tc Cert.KernelIdeal.main_v0), Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W4 m ρ c (Proc.devRef .tc Cert.KernelIdeal.main_v0)
  obtain ⟨h0, h1, h2, h3, h4, h5, h6, h7⟩ := hagree c
  obtain ⟨f0, f1, f2⟩ := Cert.PreReal.finite_of_pre _ _ _ _ _ _ _ _ (hpre c)
  rw [Cert.ReferenceIdeal.Read.val_main_v21_eq, Cert.ReferenceIdeal.RefValue.result_eq, Cert.KernelIdeal.Chain.kernel_value,
    h0, h1, h2, h3, h4, h5, h6, h7, Cert.Spec.mm_assoc _ _ _ f1 f0 f2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
